-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S8x9x256x256 : Shape := ⟨4, ![8, 9, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel
  bcast_S_S8x9x256x256 : S_.BroadcastsInDim S8x9x256x256 (![] : Fin 0 → Fin S8x9x256x256.rank)
  reducesTo_S8x9x256x256_S_d0_1_2_3 : S8x9x256x256.ReducesTo [0, 1, 2, 3] S_

variable [Facts]

def fn {F : FTy → Type} [FloatOps F] (main_arg0 : FVec F S8x64x256x256 .f32) (main_arg1 : FVec F S8x9x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  let main_v4 : FVec F S8x9x256x256 .f32 := Host.absf main_arg1
  let main_cst_0 : FVec F S_ .f32 := constant S_ .f32 0x7F800000#32
  let main_v5 : FVec F S8x9x256x256 .f32 := broadcastInDim S8x9x256x256 ![] bcast_S_S8x9x256x256 main_cst_0
  let main_v6 : IVec S8x9x256x256 1 := cmpf .olt main_v4 main_v5
  let main_c_1 : IVec S_ 1 := constantI S_ 1 1#1
  let main_v7 : IVec S_ 1 := (fun x v => Host.reduce IntOp.andi x v reducesTo_S8x9x256x256_S_d0_1_2_3 h_S_) main_v6 main_c_1
  let main_v8 : IVec S_ 1 := andi main_v3 main_v7
  main_v8
-- ==== Kernel.lean ====
abbrev S8x64x256x256 : Shape := ⟨4, ![8, 64, 256, 256]⟩
abbrev S8x9x256x256 : Shape := ⟨4, ![8, 9, 256, 256]⟩
abbrev S1x8x256x256 : Shape := ⟨4, ![1, 8, 256, 256]⟩
abbrev S1x9x256x256 : Shape := ⟨4, ![1, 9, 256, 256]⟩
abbrev S8x256x256 : Shape := ⟨3, ![8, 256, 256]⟩
abbrev S1x1x256x256 : Shape := ⟨4, ![1, 1, 256, 256]⟩
abbrev S256x256 : Shape := ⟨2, ![256, 256]⟩
abbrev S256x1 : Shape := ⟨2, ![256, 1]⟩
abbrev S1x256 : Shape := ⟨2, ![1, 256]⟩
abbrev S1x256x256 : Shape := ⟨3, ![1, 256, 256]⟩
abbrev S1x256x1 : Shape := ⟨3, ![1, 256, 1]⟩
abbrev S1x1x256 : Shape := ⟨3, ![1, 1, 256]⟩

abbrev nBuf : Space → Nat
  | .hbm => 3
  | .vmem => 6
  | .smem => 0
  | _ => 0

abbrev bufTy : (tb : Table) → Fin (tcTables nBuf tb) → BufTy
  | .hbm, ⟨0, _⟩ => ⟨S8x64x256x256, .f32⟩
  | .hbm, ⟨1, _⟩ => ⟨S8x9x256x256, .f32⟩
  | .hbm, ⟨2, _⟩ => ⟨S8x64x256x256, .f32⟩
  | .local _ .vmem, ⟨0, _⟩ => ⟨S1x8x256x256, .f32⟩
  | .local _ .vmem, ⟨1, _⟩ => ⟨S1x8x256x256, .f32⟩
  | .local _ .vmem, ⟨2, _⟩ => ⟨S1x9x256x256, .f32⟩
  | .local _ .vmem, ⟨3, _⟩ => ⟨S1x9x256x256, .f32⟩
  | .local _ .vmem, ⟨4, _⟩ => ⟨S1x8x256x256, .f32⟩
  | .local _ .vmem, ⟨5, _⟩ => ⟨S1x8x256x256, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x8x256x256_S1x8x256x256_0_0_0_0 : ∀ a, (![0, 0, 0, 0] : Fin 4 → Nat) a + S1x8x256x256.size a ≤ S1x8x256x256.size a
  h_S1x8x256x256 : 0 < S1x8x256x256.numel
  shapeCasts_S1x8x256x256_S8x256x256 : S1x8x256x256.ShapeCasts S8x256x256
  inb_S1x9x256x256_S1x1x256x256_0_0_0_0 : ∀ a, (![0, 0, 0, 0] : Fin 4 → Nat) a + S1x1x256x256.size a ≤ S1x9x256x256.size a
  h_S1x1x256x256 : 0 < S1x1x256x256.numel
  shapeCasts_S1x1x256x256_S256x256 : S1x1x256x256.ShapeCasts S256x256
  rotates_S8x256x256_d1 : S8x256x256.Rotates 1 none
  rotates_S8x256x256_d2 : S8x256x256.Rotates 2 none
  iota_S256x1_d0_w32 : S256x1.Iotas .tc 32 [0]
  iota_S1x256_d1_w32 : S1x256.Iotas .tc 32 [1]
  broadcasts_S256x1_S256x256 : S256x1.Broadcasts S256x256
  broadcasts_S1x256_S256x256 : S1x256.Broadcasts S256x256
  shapeCasts_S256x256_S1x256x256 : S256x256.ShapeCasts S1x256x256
  broadcasts_S1x256x256_S8x256x256 : S1x256x256.Broadcasts S8x256x256
  inb_S1x9x256x256_S1x1x256x256_0_1_0_0 : ∀ a, (![0, 1, 0, 0] : Fin 4 → Nat) a + S1x1x256x256.size a ≤ S1x9x256x256.size a
  shapeCasts_S256x1_S1x256x1 : S256x1.ShapeCasts S1x256x1
  broadcasts_S1x256x1_S8x256x256 : S1x256x1.Broadcasts S8x256x256
  inb_S1x9x256x256_S1x1x256x256_0_2_0_0 : ∀ a, (![0, 2, 0, 0] : Fin 4 → Nat) a + S1x1x256x256.size a ≤ S1x9x256x256.size a
  inb_S1x9x256x256_S1x1x256x256_0_3_0_0 : ∀ a, (![0, 3, 0, 0] : Fin 4 → Nat) a + S1x1x256x256.size a ≤ S1x9x256x256.size a
  shapeCasts_S1x256_S1x1x256 : S1x256.ShapeCasts S1x1x256
  broadcasts_S1x1x256_S8x256x256 : S1x1x256.Broadcasts S8x256x256
  inb_S1x9x256x256_S1x1x256x256_0_4_0_0 : ∀ a, (![0, 4, 0, 0] : Fin 4 → Nat) a + S1x1x256x256.size a ≤ S1x9x256x256.size a
  inb_S1x9x256x256_S1x1x256x256_0_5_0_0 : ∀ a, (![0, 5, 0, 0] : Fin 4 → Nat) a + S1x1x256x256.size a ≤ S1x9x256x256.size a
  inb_S1x9x256x256_S1x1x256x256_0_6_0_0 : ∀ a, (![0, 6, 0, 0] : Fin 4 → Nat) a + S1x1x256x256.size a ≤ S1x9x256x256.size a
  inb_S1x9x256x256_S1x1x256x256_0_7_0_0 : ∀ a, (![0, 7, 0, 0] : Fin 4 → Nat) a + S1x1x256x256.size a ≤ S1x9x256x256.size a
  inb_S1x9x256x256_S1x1x256x256_0_8_0_0 : ∀ a, (![0, 8, 0, 0] : Fin 4 → Nat) a + S1x1x256x256.size a ≤ S1x9x256x256.size a
  shapeCasts_S8x256x256_S1x8x256x256 : S8x256x256.ShapeCasts S1x8x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x256.size a ≤ S8x64x256x256.size a
  hwx0_0 : ∀ i : grid0.Coords, EltTy.bits .f32 = 32 ∨ (Rect.block (s := S8x64x256x256) S1x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x9x256x256.size a ≤ S8x9x256x256.size a
  hwx0_1 : ∀ i : grid0.Coords, EltTy.bits .f32 = 32 ∨ (Rect.block (s := S8x9x256x256) S1x9x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256x256.size a ≤ S8x64x256x256.size a
  hwx0_2 : ∀ i : grid0.Coords, EltTy.bits .f32 = 32 ∨ (Rect.block (s := S8x64x256x256) S1x8x256x256.size (cc0_transform_2 i) (hinb0_2 i)).WholeWords (EltTy.packing .f32)

variable [Facts₀]

abbrev win0_0 : Pipeline.Window sig grid0 :=
  Pipeline.Window.ofSpec (Memref.whole main_arg0) S1x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x9x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S8x9x256x256 : Shape := ⟨4, ![8, 9, 256, 256]⟩
abbrev S_ : Shape := ⟨0, ![]⟩
abbrev S8x64x258x258 : Shape := ⟨4, ![8, 64, 258, 258]⟩
abbrev S8x1x256x256 : Shape := ⟨4, ![8, 1, 256, 256]⟩
abbrev S8x256x256 : Shape := ⟨3, ![8, 256, 256]⟩

abbrev nBuf : Space → Nat
  | .hbm => 68
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S8x9x256x256, .f32⟩
  | .hbm, ⟨2, _⟩ => ⟨S_, .i32⟩
  | .hbm, ⟨3, _⟩ => ⟨S_, .f32⟩
  | .hbm, ⟨4, _⟩ => ⟨S8x64x258x258, .f32⟩
  | .hbm, ⟨5, _⟩ => ⟨S8x64x256x256, .f32⟩
  | .hbm, ⟨6, _⟩ => ⟨S8x1x256x256, .f32⟩
  | .hbm, ⟨7, _⟩ => ⟨S8x256x256, .f32⟩
  | .hbm, ⟨8, _⟩ => ⟨S8x1x256x256, .f32⟩
  | .hbm, ⟨9, _⟩ => ⟨S8x64x256x256, .f32⟩
  | .hbm, ⟨10, _⟩ => ⟨S8x64x256x256, .f32⟩
  | .hbm, ⟨11, _⟩ => ⟨S8x64x256x256, .f32⟩
  | .hbm, ⟨12, _⟩ => ⟨S8x64x256x256, .f32⟩
  | .hbm, ⟨13, _⟩ => ⟨S8x1x256x256, .f32⟩
  | .hbm, ⟨14, _⟩ => ⟨S8x256x256, .f32⟩
  | .hbm, ⟨15, _⟩ => ⟨S8x1x256x256, .f32⟩
  | .hbm, ⟨16, _⟩ => ⟨S8x64x256x256, .f32⟩
  | .hbm, ⟨17, _⟩ => ⟨S8x64x256x256, .f32⟩
  | .hbm, ⟨18, _⟩ => ⟨S8x64x256x256, .f32⟩
  | .hbm, ⟨19, _⟩ => ⟨S8x64x256x256, .f32⟩
  | .hbm, ⟨20, _⟩ => ⟨S8x1x256x256, .f32⟩
  | .hbm, ⟨21, _⟩ => ⟨S8x256x256, .f32⟩
  | .hbm, ⟨22, _⟩ => ⟨S8x1x256x256, .f32⟩
  | .hbm, ⟨23, _⟩ => ⟨S8x64x256x256, .f32⟩
  | .hbm, ⟨24, _⟩ => ⟨S8x64x256x256, .f32⟩
  | .hbm, ⟨25, _⟩ => ⟨S8x64x256x256, .f32⟩
  | .hbm, ⟨26, _⟩ => ⟨S8x64x256x256, .f32⟩
  | .hbm, ⟨27, _⟩ => ⟨S8x1x256x256, .f32⟩
  | .hbm, ⟨28, _⟩ => ⟨S8x256x256, .f32⟩
  | .hbm, ⟨29, _⟩ => ⟨S8x1x256x256, .f32⟩
  | .hbm, ⟨30, _⟩ => ⟨S8x64x256x256, .f32⟩
  | .hbm, ⟨31, _⟩ => ⟨S8x64x256x256, .f32⟩
  | .hbm, ⟨32, _⟩ => ⟨S8x64x256x256, .f32⟩
  | .hbm, ⟨33, _⟩ => ⟨S8x64x256x256, .f32⟩
  | .hbm, ⟨34, _⟩ => ⟨S8x1x256x256, .f32⟩
  | .hbm, ⟨35, _⟩ => ⟨S8x256x256, .f32⟩
  | .hbm, ⟨36, _⟩ => ⟨S8x1x256x256, .f32⟩
  | .hbm, ⟨37, _⟩ => ⟨S8x64x256x256, .f32⟩
  | .hbm, ⟨38, _⟩ => ⟨S8x64x256x256, .f32⟩
  | .hbm, ⟨39, _⟩ => ⟨S8x64x256x256, .f32⟩
  | .hbm, ⟨40, _⟩ => ⟨S8x64x256x256, .f32⟩
  | .hbm, ⟨41, _⟩ => ⟨S8x1x256x256, .f32⟩
  | .hbm, ⟨42, _⟩ => ⟨S8x256x256, .f32⟩
  | .hbm, ⟨43, _⟩ => ⟨S8x1x256x256, .f32⟩
  | .hbm, ⟨44, _⟩ => ⟨S8x64x256x256, .f32⟩
  | .hbm, ⟨45, _⟩ => ⟨S8x64x256x256, .f32⟩
  | .hbm, ⟨46, _⟩ => ⟨S8x64x256x256, .f32⟩
  | .hbm, ⟨47, _⟩ => ⟨S8x64x256x256, .f32⟩
  | .hbm, ⟨48, _⟩ => ⟨S8x1x256x256, .f32⟩
  | .hbm, ⟨49, _⟩ => ⟨S8x256x256, .f32⟩
  | .hbm, ⟨50, _⟩ => ⟨S8x1x256x256, .f32⟩
  | .hbm, ⟨51, _⟩ => ⟨S8x64x256x256, .f32⟩
  | .hbm, ⟨52, _⟩ => ⟨S8x64x256x256, .f32⟩
  | .hbm, ⟨53, _⟩ => ⟨S8x64x256x256, .f32⟩
  | .hbm, ⟨54, _⟩ => ⟨S8x64x256x256, .f32⟩
  | .hbm, ⟨55, _⟩ => ⟨S8x1x256x256, .f32⟩
  | .hbm, ⟨56, _⟩ => ⟨S8x256x256, .f32⟩
  | .hbm, ⟨57, _⟩ => ⟨S8x1x256x256, .f32⟩
  | .hbm, ⟨58, _⟩ => ⟨S8x64x256x256, .f32⟩
  | .hbm, ⟨59, _⟩ => ⟨S8x64x256x256, .f32⟩
  | .hbm, ⟨60, _⟩ => ⟨S8x64x256x256, .f32⟩
  | .hbm, ⟨61, _⟩ => ⟨S8x64x256x256, .f32⟩
  | .hbm, ⟨62, _⟩ => ⟨S8x1x256x256, .f32⟩
  | .hbm, ⟨63, _⟩ => ⟨S8x256x256, .f32⟩
  | .hbm, ⟨64, _⟩ => ⟨S8x1x256x256, .f32⟩
  | .hbm, ⟨65, _⟩ => ⟨S8x64x256x256, .f32⟩
  | .hbm, ⟨66, _⟩ => ⟨S8x64x256x256, .f32⟩
  | .hbm, ⟨67, _⟩ => ⟨S8x64x256x256, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩

abbrev nD : Nat := 1
abbrev τ : Topo := Topo.v7x

variable {F : FTy → Type} [FloatOps F]

class Facts₀ : Prop where
  pads_S8x64x256x256_S8x64x258x258_000_000_110_110 : S8x64x256x256.Pads (![0, 0, 1, 1] : Fin 4 → Nat) ![0, 0, 1, 1] ![0, 0, 0, 0] S8x64x258x258
  h_S_ : 0 < S_.numel
  slices_S8x64x258x258_S8x64x256x256_0_0_0_0 : S8x64x258x258.Slices ![0, 0, 0, 0] S8x64x256x256
  slices_S8x9x256x256_S8x1x256x256_0_0_0_0 : S8x9x256x256.Slices ![0, 0, 0, 0] S8x1x256x256
  shapeCasts_S8x1x256x256_S8x256x256 : S8x1x256x256.ShapeCasts S8x256x256
  bcast_S8x256x256_S8x1x256x256_0_2_3 : S8x256x256.BroadcastsInDim S8x1x256x256 (![0, 2, 3] : Fin 3 → Fin S8x1x256x256.rank)
  bcast_S8x1x256x256_S8x64x256x256_0_1_2_3 : S8x1x256x256.BroadcastsInDim S8x64x256x256 (![0, 1, 2, 3] : Fin 4 → Fin S8x64x256x256.rank)
  slices_S8x64x258x258_S8x64x256x256_0_0_0_1 : S8x64x258x258.Slices ![0, 0, 0, 1] S8x64x256x256
  slices_S8x9x256x256_S8x1x256x256_0_1_0_0 : S8x9x256x256.Slices ![0, 1, 0, 0] S8x1x256x256
  slices_S8x64x258x258_S8x64x256x256_0_0_0_2 : S8x64x258x258.Slices ![0, 0, 0, 2] S8x64x256x256
  slices_S8x9x256x256_S8x1x256x256_0_2_0_0 : S8x9x256x256.Slices ![0, 2, 0, 0] S8x1x256x256
  slices_S8x64x258x258_S8x64x256x256_0_0_1_0 : S8x64x258x258.Slices ![0, 0, 1, 0] S8x64x256x256
  slices_S8x9x256x256_S8x1x256x256_0_3_0_0 : S8x9x256x256.Slices ![0, 3, 0, 0] S8x1x256x256
  slices_S8x64x258x258_S8x64x256x256_0_0_1_1 : S8x64x258x258.Slices ![0, 0, 1, 1] S8x64x256x256
  slices_S8x9x256x256_S8x1x256x256_0_4_0_0 : S8x9x256x256.Slices ![0, 4, 0, 0] S8x1x256x256
  slices_S8x64x258x258_S8x64x256x256_0_0_1_2 : S8x64x258x258.Slices ![0, 0, 1, 2] S8x64x256x256
  slices_S8x9x256x256_S8x1x256x256_0_5_0_0 : S8x9x256x256.Slices ![0, 5, 0, 0] S8x1x256x256
  slices_S8x64x258x258_S8x64x256x256_0_0_2_0 : S8x64x258x258.Slices ![0, 0, 2, 0] S8x64x256x256
  slices_S8x9x256x256_S8x1x256x256_0_6_0_0 : S8x9x256x256.Slices ![0, 6, 0, 0] S8x1x256x256
  slices_S8x64x258x258_S8x64x256x256_0_0_2_1 : S8x64x258x258.Slices ![0, 0, 2, 1] S8x64x256x256
  slices_S8x9x256x256_S8x1x256x256_0_7_0_0 : S8x9x256x256.Slices ![0, 7, 0, 0] S8x1x256x256
  slices_S8x64x258x258_S8x64x256x256_0_0_2_2 : S8x64x258x258.Slices ![0, 0, 2, 2] S8x64x256x256
  slices_S8x9x256x256_S8x1x256x256_0_8_0_0 : S8x9x256x256.Slices ![0, 8, 0, 0] S8x1x256x256

variable [Facts₀]

class Facts : Prop extends Facts₀ where

variable [Facts]
-- ==== Proof.Spec.lean ====
/-
  The per-pixel 3×3 convolution with a residual, as ONE function of the two argument arrays.

  For a plane `f : 256 × 256` and nine weight planes `a k`, the value at pixel (h, w) is
      f h w + Σ_{i, j ∈ {0,1,2}}  f̄ (h + i − 1, w + j − 1) · a (3 i + j) h w ,
  the nine products added one after another in the order (0,0), (0,1), …, (2,2), where f̄ is f continued by
  zero outside the plane.  The array-level function applies this to every (batch, channel) plane of the feature
  array with the batch's nine weight planes.
-/
import Idealize.ShloMosaic.PureOps.Ideal
import Idealize.ShloMosaic.PureOps.Ideal.Laws
import Idealize.ShloMosaic.Lib.ValueIdx
import Idealize.ShloMosaic.Lib.IdealHost

noncomputable section

namespace Cert.PerPixel

open Idealize.ShloMosaic Idealize.ShloMosaic.ValueIdx

/-- The plane continued by zero: its entry at (h + i − 1, w + j − 1) when that lies inside, zero otherwise. -/
def nbr (f : Fin 256 → Fin 256 → EReal) (h w : Fin 256) (i j : ℕ) : EReal :=
  if hh : (1 ≤ h.val + i ∧ h.val + i ≤ 256) ∧ (1 ≤ w.val + j ∧ w.val + j ≤ 256) then
    f ⟨h.val + i - 1, by omega⟩ ⟨w.val + j - 1, by omega⟩
  else 0

/-- Inside the plane the continuation is the plane. -/
theorem nbr_of_inside (f : Fin 256 → Fin 256 → EReal) (h w : Fin 256) (i j : ℕ) (h' w' : Fin 256)
    (eh : h'.val + 1 = h.val + i) (ew : w'.val + 1 = w.val + j) : nbr f h w i j = f h' w' := by
  unfold nbr
  have hh : (1 ≤ h.val + i ∧ h.val + i ≤ 256) ∧ (1 ≤ w.val + j ∧ w.val + j ≤ 256) := by
    have := h'.isLt; have := w'.isLt; omega
  rw [dif_pos hh]
  congr 1 <;> exact Fin.ext (by simp only []; omega)

/-- Outside the plane the continuation is zero. -/
theorem nbr_of_outside (f : Fin 256 → Fin 256 → EReal) (h w : Fin 256) (i j : ℕ)
    (hout : ¬((1 ≤ h.val + i ∧ h.val + i ≤ 256) ∧ (1 ≤ w.val + j ∧ w.val + j ≤ 256))) : nbr f h w i j = 0 := by
  unfold nbr
  rw [dif_neg hout]

/-- The centre tap is the pixel itself. -/
theorem nbr_centre (f : Fin 256 → Fin 256 → EReal) (h w : Fin 256) : nbr f h w 1 1 = f h w :=
  nbr_of_inside f h w 1 1 h w rfl rfl

/-- One plane's result at a pixel: the pixel plus its nine weighted neighbours, added in tap order. -/
def conv (f : Fin 256 → Fin 256 → EReal) (a : Fin 9 → Fin 256 → Fin 256 → EReal) (h w : Fin 256) : EReal :=
  f h w + nbr f h w 0 0 * a 0 h w + nbr f h w 0 1 * a 1 h w + nbr f h w 0 2 * a 2 h w
    + nbr f h w 1 0 * a 3 h w + nbr f h w 1 1 * a 4 h w + nbr f h w 1 2 * a 5 h w
    + nbr f h w 2 0 * a 6 h w + nbr f h w 2 1 * a 7 h w + nbr f h w 2 2 * a 8 h w

/-- The whole result: every (batch, channel) plane of `feat` convolved with its batch's nine weight planes. -/
def result (feat : (⟨4, ![8, 64, 256, 256]⟩ : Shape).Idx → EReal) (att : (⟨4, ![8, 9, 256, 256]⟩ : Shape).Idx → EReal) :
    (⟨4, ![8, 64, 256, 256]⟩ : Shape).Idx → EReal :=
  fun i => conv (fun h w => feat (ix4 (i 0) (i 1) h w)) (fun k h w => att (ix4 (i 0) k h w)) (i 2) (i 3)

theorem result_apply (feat : (⟨4, ![8, 64, 256, 256]⟩ : Shape).Idx → EReal) (att : (⟨4, ![8, 9, 256, 256]⟩ : Shape).Idx → EReal)
    (n : Fin 8) (c : Fin 64) (h w : Fin 256) :
    result feat att (ix4 n c h w)
      = conv (fun h w => feat (ix4 n c h w)) (fun k h w => att (ix4 n k h w)) h w := rfl

/-! ## A rotated plane times an edge mask is the zero continuation

A rotation by `s` along an axis of length 256 reads entry `(h + 256 − s) mod 256`; the mask is 0 on the one row
(or column) where the rotation wrapped around and 1 elsewhere. -/

/-- Where a rotation by `s` reads. -/
def rotIdx (s : ℕ) (h : Fin 256) : Fin 256 := ⟨(h.val + 256 - s % 256) % 256, Nat.mod_lt _ (by norm_num)⟩

/-- The mask's factor on one axis: 0 at the wrapped coordinate `b`, 1 elsewhere. -/
def edge (b : ℕ) (h : Fin 256) : EReal := if h.val = b then 0 else 1

/-- Rotation by 1 (reads h − 1), wrapped coordinate 0; rotation by 255 (reads h + 1), wrapped coordinate 255. -/
inductive Shift : ℕ → ℕ → ℕ → Prop
  | back : Shift 0 1 0
  | fwd : Shift 2 255 255

theorem Shift.inside {i s b : ℕ} (σ : Shift i s b) (h : Fin 256) (hb : h.val ≠ b) :
    (1 ≤ h.val + i ∧ h.val + i ≤ 256) ∧ (rotIdx s h).val + 1 = h.val + i := by
  have := h.isLt
  cases σ <;> (unfold rotIdx; simp only []; omega)

theorem Shift.outside {i s b : ℕ} (σ : Shift i s b) (h : Fin 256) (hb : h.val = b) :
    ¬(1 ≤ h.val + i ∧ h.val + i ≤ 256) := by
  cases σ <;> omega

/-- A corner tap: rotated along both axes, masked on both. -/
theorem rot_mul_edge_both (f : Fin 256 → Fin 256 → EReal) (h w : Fin 256) {i s b j s' b' : ℕ}
    (σ : Shift i s b) (σ' : Shift j s' b') :
    f (rotIdx s h) (rotIdx s' w) * (edge b h * edge b' w) = nbr f h w i j := by
  unfold edge
  by_cases hb : h.val = b
  · rw [if_pos hb, zero_mul, mul_zero]
    exact (nbr_of_outside f h w i j fun hh => σ.outside h hb hh.1).symm
  · by_cases hb' : w.val = b'
    · rw [if_pos hb', mul_zero, mul_zero]
      exact (nbr_of_outside f h w i j fun hh => σ'.outside w hb' hh.2).symm
    · rw [if_neg hb, if_neg hb', mul_one, mul_one]
      exact (nbr_of_inside f h w i j _ _ (σ.inside h hb).2 (σ'.inside w hb').2).symm

/-- A tap above or below: rotated along the rows only, masked on the rows. -/
theorem rot_mul_edge_rows (f : Fin 256 → Fin 256 → EReal) (h w : Fin 256) {i s b : ℕ} (σ : Shift i s b) :
    f (rotIdx s h) w * edge b h = nbr f h w i 1 := by
  unfold edge
  by_cases hb : h.val = b
  · rw [if_pos hb, mul_zero]
    exact (nbr_of_outside f h w i 1 fun hh => σ.outside h hb hh.1).symm
  · rw [if_neg hb, mul_one]
    exact (nbr_of_inside f h w i 1 _ w (σ.inside h hb).2 rfl).symm

/-- A tap left or right: rotated along the columns only, masked on the columns. -/
theorem rot_mul_edge_cols (f : Fin 256 → Fin 256 → EReal) (h w : Fin 256) {j s b : ℕ} (σ : Shift j s b) :
    f h (rotIdx s w) * edge b w = nbr f h w 1 j := by
  unfold edge
  by_cases hb : w.val = b
  · rw [if_pos hb, mul_zero]
    exact (nbr_of_outside f h w 1 j fun hh => σ.outside w hb hh.2).symm
  · rw [if_neg hb, mul_one]
    exact (nbr_of_inside f h w 1 j h _ rfl (σ.inside w hb).2).symm

end Cert.PerPixel

end
-- ==== Proof.Reads.lean ====
/-
  The kernel body's layout operations read at a pixel.

  The body works on one block of eight feature planes `[8, 256, 256]` and the batch's nine weight planes.  Each
  lemma here reads one composition the body prints at explicit coordinates (channel c, row h, column w):
  a rotation along the rows or the columns reads the entry the rotation moved there; an edge mask built from an
  iota, a comparison with the wrapped coordinate and a choice between the constants 0 and 1 is the factor
  `edge`; a plane, a column or a row broadcast over the block reads the plane's, column's or row's own entry;
  a weight plane loaded from the staged weight block reads that block at its tap's channel.
-/
import proofs.«105196_j16269336117256_1_alg».proof.KernelIdeal
import proofs.«105196_j16269336117256_1_alg».proof.Proof.Spec
import Idealize.ShloMosaic.Lib.Pipeline.Value
import Idealize.ShloMosaic.Lib.ValueLayout
import Idealize.ShloMosaic.Lib.KernelVsHost

noncomputable section

namespace Cert.PerPixel

open Idealize.ShloMosaic Idealize.ShloMosaic.ValueIdx Cert.KernelIdeal

section Layout
variable {α : Type}

/-- A rotation of the block along its rows reads, at row h, the row the rotation brought there. -/
theorem rotate_rows_apply (x : S8x256x256.Idx → α) (s : BitVec 32) (hr : S8x256x256.Rotates 1 none)
    (c : Fin 8) (h w : Fin 256) :
    dynamicRotate 1 s none x hr (ix3 c h w) = x (ix3 c (rotIdx s.toNat h) w) :=
  dynamicRotate_apply (1 : Fin 3) s x hr (ix3 c h w) (ix3 c (rotIdx s.toNat h) w) (by
    intro b
    match b with
    | ⟨0, _⟩ => rfl
    | ⟨1, _⟩ => rfl
    | ⟨2, _⟩ => rfl)

/-- A rotation of the block along its columns reads, at column w, the column the rotation brought there. -/
theorem rotate_cols_apply (x : S8x256x256.Idx → α) (s : BitVec 32) (hr : S8x256x256.Rotates 2 none)
    (c : Fin 8) (h w : Fin 256) :
    dynamicRotate 2 s none x hr (ix3 c h w) = x (ix3 c h (rotIdx s.toNat w)) :=
  dynamicRotate_apply (2 : Fin 3) s x hr (ix3 c h w) (ix3 c h (rotIdx s.toNat w)) (by
    intro b
    match b with
    | ⟨0, _⟩ => rfl
    | ⟨1, _⟩ => rfl
    | ⟨2, _⟩ => rfl)

/-- A plane laid over every channel of the block reads the plane. -/
theorem plane_over_block_apply (M : S256x256.Idx → α) (hsc : S256x256.ShapeCasts S1x256x256)
    (hbc : S1x256x256.Broadcasts S8x256x256) (c : Fin 8) (h w : Fin 256) :
    broadcastTo S8x256x256 (shapeCast S1x256x256 M hsc) hbc (ix3 c h w) = M (ix2 h w) := by
  refine (broadcastTo_apply _ hbc (ix3 c h w) (ix3 (0 : Fin 1) h w) (by
    intro a
    match a with
    | ⟨0, _⟩ => rfl
    | ⟨1, _⟩ => rfl
    | ⟨2, _⟩ => rfl)).trans ?_
  exact shapeCast_ab_1ab_apply M hsc 0 h w

/-- A column (one entry per row) laid over every channel and every column of the block reads the row's entry. -/
theorem column_over_block_apply (M : S256x1.Idx → α) (hsc : S256x1.ShapeCasts S1x256x1)
    (hbc : S1x256x1.Broadcasts S8x256x256) (c : Fin 8) (h w : Fin 256) :
    broadcastTo S8x256x256 (shapeCast S1x256x1 M hsc) hbc (ix3 c h w) = M (ix2 h (0 : Fin 1)) := by
  refine (broadcastTo_apply _ hbc (ix3 c h w) (ix3 (0 : Fin 1) h (0 : Fin 1)) (by
    intro a
    match a with
    | ⟨0, _⟩ => rfl
    | ⟨1, _⟩ => rfl
    | ⟨2, _⟩ => rfl)).trans ?_
  exact shapeCast_ab_1ab_apply M hsc 0 h 0

/-- A row (one entry per column) laid over every channel and every row of the block reads the column's entry. -/
theorem row_over_block_apply (M : S1x256.Idx → α) (hsc : S1x256.ShapeCasts S1x1x256)
    (hbc : S1x1x256.Broadcasts S8x256x256) (c : Fin 8) (h w : Fin 256) :
    broadcastTo S8x256x256 (shapeCast S1x1x256 M hsc) hbc (ix3 c h w) = M (ix2 (0 : Fin 1) w) := by
  refine (broadcastTo_apply _ hbc (ix3 c h w) (ix3 (0 : Fin 1) (0 : Fin 1) w) (by
    intro a
    match a with
    | ⟨0, _⟩ => rfl
    | ⟨1, _⟩ => rfl
    | ⟨2, _⟩ => rfl)).trans ?_
  exact shapeCast_ab_1ab_apply M hsc 0 0 w

/-- A column laid over every column of a plane reads the row's entry. -/
theorem column_over_plane_apply (M : S256x1.Idx → α) (hbc : S256x1.Broadcasts S256x256) (h w : Fin 256) :
    broadcastTo S256x256 M hbc (ix2 h w) = M (ix2 h (0 : Fin 1)) :=
  broadcastTo_apply M hbc (ix2 h w) (ix2 h (0 : Fin 1)) (by
    intro a
    match a with
    | ⟨0, _⟩ => rfl
    | ⟨1, _⟩ => rfl)

/-- A row laid over every row of a plane reads the column's entry. -/
theorem row_over_plane_apply (M : S1x256.Idx → α) (hbc : S1x256.Broadcasts S256x256) (h w : Fin 256) :
    broadcastTo S256x256 M hbc (ix2 h w) = M (ix2 (0 : Fin 1) w) :=
  broadcastTo_apply M hbc (ix2 h w) (ix2 (0 : Fin 1) w) (by
    intro a
    match a with
    | ⟨0, _⟩ => rfl
    | ⟨1, _⟩ => rfl)

/-- The result block `[8, 256, 256]` stored as `[1, 8, 256, 256]` reads the block. -/
theorem block_as_window_apply (v : S8x256x256.Idx → α) (hsc : S8x256x256.ShapeCasts S1x8x256x256)
    (c : Fin 8) (h w : Fin 256) :
    shapeCast S1x8x256x256 v hsc (ix4 (0 : Fin 1) c h w) = v (ix3 c h w) :=
  shapeCast_abc_1abc_apply v hsc 0 c h w

/-- The staged feature window `[1, 8, 256, 256]` viewed as the block `[8, 256, 256]` reads the window. -/
theorem window_as_block_apply (x : S1x8x256x256.Idx → α) (hsc : S1x8x256x256.ShapeCasts S8x256x256)
    (c : Fin 8) (h w : Fin 256) :
    shapeCast S8x256x256 x hsc (ix3 c h w) = x (ix4 (0 : Fin 1) c h w) :=
  shapeCast_1abc_abc_apply x hsc c h w

/-- Tap k's weight plane: the `[1, 1, 256, 256]` piece of the staged weight window at channel k, viewed as a
    plane, reads the window at (0, k, h, w). -/
theorem weight_plane_apply (x : Vec Ideal S1x9x256x256 .f32) (k : ℕ) (hk : k < 9)
    (inb : ∀ a, (![0, k, 0, 0] : Fin 4 → Nat) a + S1x1x256x256.size a ≤ S1x9x256x256.size a)
    (hsc : S1x1x256x256.ShapeCasts S256x256) (h w : Fin 256) :
    shapeCast S256x256 (View.ld x (Rect.unit (s := S1x9x256x256) ![0, k, 0, 0] S1x1x256x256.size inb)) hsc (ix2 h w)
      = x (ix4 (0 : Fin 1) (⟨k, hk⟩ : Fin 9) h w) := by
  refine (shapeCast_apply _ hsc (ix2 h w) (ix4 (0 : Fin 1) (0 : Fin 1) h w) (by
    rw [Shape.rowMajor_val_four, Shape.rowMajor_val_two]
    show ((0 * 1 + 0) * 256 + h.val) * 256 + w.val = h.val * 256 + w.val
    omega)).trans ?_
  refine congrArg x (funext fun a => Fin.ext ?_)
  match a with
  | ⟨0, _⟩ => rfl
  | ⟨1, _⟩ => show k + 1 * 0 = k; omega
  | ⟨2, _⟩ => show 0 + 1 * h.val = h.val; omega
  | ⟨3, _⟩ => show 0 + 1 * w.val = w.val; omega

end Layout

/-! ## The edge masks -/

/-- The row mask: 0 on the row whose number is the word `b`, 1 on the others. -/
theorem row_mask_apply (b : BitVec 32) (bn : ℕ) (hb : b = BitVec.ofNat 32 bn) (hbn : bn < 256)
    (hi : S256x1.Iotas .tc 32 [0]) (h : Fin 256) (q : Fin 1) :
    select (cmpi .eq (iota .tc S256x1 32 [0] hi) (broadcast S256x1 b))
        (broadcast S256x1 (Scalar.ofBits (F := Ideal) .f32 0x00000000#32))
        (broadcast S256x1 (Scalar.ofBits (F := Ideal) .f32 0x3F800000#32)) (ix2 h q)
      = edge bn h := by
  have hh := h.isLt
  rw [select_apply]
  show Scalar.select (IntOp.cmpi .eq (iota .tc S256x1 32 [0] hi (ix2 h q)) b) _ _ = _
  rw [iota_single_apply]
  show Scalar.select (IntOp.cmpi .eq (BitVec.ofNat 32 h.val) b) (Ideal.ofBits .f32 0x00000000#32)
      (Ideal.ofBits .f32 0x3F800000#32) = _
  rw [Ideal.ofBits_zero_f32, Ideal.ofBits_one_f32]
  unfold edge Scalar.select IntOp.cmpi
  subst hb
  by_cases e : h.val = bn
  · rw [if_pos e, e]; simp
  · rw [if_neg e]
    have hne : ¬(BitVec.ofNat 32 h.val = BitVec.ofNat 32 bn) := by
      intro hc
      have := congrArg BitVec.toNat hc
      simp only [BitVec.toNat_ofNat] at this
      omega
    rw [beq_eq_false_iff_ne.mpr hne]
    simp

/-- The column mask: 0 on the column whose number is the word `b`, 1 on the others. -/
theorem col_mask_apply (b : BitVec 32) (bn : ℕ) (hb : b = BitVec.ofNat 32 bn) (hbn : bn < 256)
    (hi : S1x256.Iotas .tc 32 [1]) (q : Fin 1) (w : Fin 256) :
    select (cmpi .eq (iota .tc S1x256 32 [1] hi) (broadcast S1x256 b))
        (broadcast S1x256 (Scalar.ofBits (F := Ideal) .f32 0x00000000#32))
        (broadcast S1x256 (Scalar.ofBits (F := Ideal) .f32 0x3F800000#32)) (ix2 q w)
      = edge bn w := by
  have hw := w.isLt
  rw [select_apply]
  show Scalar.select (IntOp.cmpi .eq (iota .tc S1x256 32 [1] hi (ix2 q w)) b) _ _ = _
  rw [iota_single_apply]
  show Scalar.select (IntOp.cmpi .eq (BitVec.ofNat 32 w.val) b) (Ideal.ofBits .f32 0x00000000#32)
      (Ideal.ofBits .f32 0x3F800000#32) = _
  rw [Ideal.ofBits_zero_f32, Ideal.ofBits_one_f32]
  unfold edge Scalar.select IntOp.cmpi
  subst hb
  by_cases e : w.val = bn
  · rw [if_pos e, e]; simp
  · rw [if_neg e]
    have hne : ¬(BitVec.ofNat 32 w.val = BitVec.ofNat 32 bn) := by
      intro hc
      have := congrArg BitVec.toNat hc
      simp only [BitVec.toNat_ofNat] at this
      omega
    rw [beq_eq_false_iff_ne.mpr hne]
    simp

end Cert.PerPixel

end
-- ==== Proof.KernelBlock.lean ====
/-
  One grid point's result block, pixel by pixel.

  At a grid point the body holds one block of eight feature planes (the staged feature window) and the batch's
  nine weight planes (the staged weight window), and stores ONE block: the feature block plus nine products
  added in tap order.  Tap (i, j)'s first factor is the feature block rotated by one row and/or one column
  (by 1 to read the entry before, by 255 to read the entry after) times a mask that is 0 exactly on the row
  and/or column where the rotation wrapped around; its second factor is weight plane 3 i + j laid over the
  eight channels.  Read at channel c and pixel (h, w) this is `conv` of channel c's plane with the nine
  weight planes: a rotated entry times its mask is the plane continued by zero (Spec: `rot_mul_edge_both`,
  `rot_mul_edge_rows`, `rot_mul_edge_cols`), and the centre tap has neither rotation nor mask.
-/
import proofs.«105196_j16269336117256_1_alg».proof.Proof.Gen.KernelIdeal.Frame
import proofs.«105196_j16269336117256_1_alg».proof.Proof.Reads

set_option maxRecDepth 16384

noncomputable section

namespace Cert.PerPixel

open Idealize.ShloMosaic Idealize.ShloMosaic.ValueIdx Cert.KernelIdeal Cert.KernelIdeal.Gen

/-- The whole-window rectangle starts at the origin. -/
theorem zero_offsets : (![0, 0, 0, 0] : Fin 4 → Nat) = fun _ => 0 := by
  funext a; fin_cases a <;> rfl

/-- What the body leaves in the result window, at channel c and pixel (h, w): the convolution of channel c's
    staged plane with the nine staged weight planes. -/
theorem block_eq (x0 : Vec Ideal S1x8x256x256 .f32) (x1 : Vec Ideal S1x9x256x256 .f32) (c : Fin 8) (h w : Fin 256) :
    out0_2 (F := Ideal) x0 x1 (ix4 (0 : Fin 1) c h w)
      = conv (fun h w => x0 (ix4 (0 : Fin 1) c h w)) (fun k h w => x1 (ix4 (0 : Fin 1) k h w)) h w := by
  -- the one store covers the window, and the feature window is loaded whole
  unfold out0_2
  rw [View.canon_unit_zero zero_offsets]
  simp only [View.ld_unit_zero (S := S1x8x256x256) zero_offsets]
  unfold k0_pay1 k0_pay15 k0_pay11 k0_pay7 k0_pay3 k0_pay2 k0_pay4 k0_pay5 k0_pay6 k0_pay8 k0_pay9 k0_pay10 k0_pay12 k0_pay13
    k0_pay14 k0_pay16 k0_pay17
  -- sums and products are pointwise; masks, broadcasts and weight planes read their own entries
  simp only [block_as_window_apply, addf_apply, mulf_apply, plane_over_block_apply, column_over_block_apply,
    row_over_block_apply, column_over_plane_apply, row_over_plane_apply,
    row_mask_apply 0#32 0 rfl (by norm_num), row_mask_apply 255#32 255 rfl (by norm_num),
    col_mask_apply 0#32 0 rfl (by norm_num), col_mask_apply 255#32 255 rfl (by norm_num),
    weight_plane_apply x1 0 (by norm_num), weight_plane_apply x1 1 (by norm_num), weight_plane_apply x1 2 (by norm_num),
    weight_plane_apply x1 3 (by norm_num), weight_plane_apply x1 4 (by norm_num), weight_plane_apply x1 5 (by norm_num),
    weight_plane_apply x1 6 (by norm_num), weight_plane_apply x1 7 (by norm_num), weight_plane_apply x1 8 (by norm_num)]
  -- the rotations, columns first (they are applied last), then rows; then the feature window itself
  repeat rw [rotate_cols_apply]
  repeat rw [rotate_rows_apply]
  simp only [k0_pay2, window_as_block_apply]
  -- the zero continuation, tap by tap, written back as rotated entry times mask
  unfold conv
  rw [← rot_mul_edge_both (fun h w => x0 (ix4 (0 : Fin 1) c h w)) h w Shift.back Shift.back,
    ← rot_mul_edge_rows (fun h w => x0 (ix4 (0 : Fin 1) c h w)) h w Shift.back,
    ← rot_mul_edge_both (fun h w => x0 (ix4 (0 : Fin 1) c h w)) h w Shift.back Shift.fwd,
    ← rot_mul_edge_cols (fun h w => x0 (ix4 (0 : Fin 1) c h w)) h w Shift.back,
    nbr_centre,
    ← rot_mul_edge_cols (fun h w => x0 (ix4 (0 : Fin 1) c h w)) h w Shift.fwd,
    ← rot_mul_edge_both (fun h w => x0 (ix4 (0 : Fin 1) c h w)) h w Shift.fwd Shift.back,
    ← rot_mul_edge_rows (fun h w => x0 (ix4 (0 : Fin 1) c h w)) h w Shift.fwd,
    ← rot_mul_edge_both (fun h w => x0 (ix4 (0 : Fin 1) c h w)) h w Shift.fwd Shift.fwd]
  rfl

end Cert.PerPixel

end
-- ==== Proof.KernelArray.lean ====
/-
  From one grid point's block to the whole result array.

  The grid has 8 × 8 points (batch n, channel block q).  At point (n, q) the feature window and the result
  window are block (n, q) of their arrays — channels 8 q … 8 q + 7 of batch n, all 256 × 256 pixels — and the
  weight window is block n of the weight array: all nine planes of batch n.  So the staged feature plane of
  channel c' is the array's plane (n, 8 q + c'), the staged weight planes are batch n's, and what the point
  writes back (`block_eq`) is `result` read through the point's block.  The 64 blocks tile the result array,
  hence the array ends holding `result` of the two argument arrays.
-/
import proofs.«105196_j16269336117256_1_alg».proof.Proof.Gen.KernelIdeal.Value
import proofs.«105196_j16269336117256_1_alg».proof.Proof.KernelBlock

set_option maxRecDepth 16384

noncomputable section

namespace Cert.PerPixel

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The three index maps over the grid: the feature window moves with the result window on the batch and
    channel-block axes, the weight window on the batch axis only, and no window moves on the pixel axes. -/
theorem window_indices : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) ≤ 7 ∧ win0_2.index t (1 : Fin 4) ≤ 7 :=
  (by decide +kernel : ∀ t : Fin grid0.N, _)

/-- Every (batch, channel block) is some grid point's. -/
theorem window_onto : ∀ (n : Fin 8) (q : Fin 8), ∃ t : Fin cfg0.N, win0_2.index t = ![n.val, q.val, 0, 0] :=
  (by decide +kernel : ∀ (n : Fin 8) (q : Fin 8), ∃ t : Fin grid0.N, win0_2.index t = ![n.val, q.val, 0, 0])

/-- What grid point t writes back is its block of `result` of the two arrays as the region finds them. -/
theorem flushed_eq (c : Dev nD) (t : Fin cfg0.N) :
    (dats m 0 c).flushed 2 t
      = ((cfg0.win 2).blk t).view.read (Elt Ideal) (result (V m c main_arg0) (V m c main_arg1)) := by
  rw [Cert.KernelIdeal.Value.flushed2]
  obtain ⟨e00, e01, e02, e03, e10, e11, e12, e13, e22, e23, b0, b1⟩ := window_indices t
  funext j
  obtain ⟨u, c', h, w, rfl⟩ : ∃ (u : Fin 1) (c' : Fin 8) (h w : Fin 256), j = ix4 u c' h w :=
    ⟨j 0, j 1, j 2, j 3, eq_ix4 j⟩
  obtain rfl : u = 0 := Subsingleton.elim _ _
  -- the pixel axes are not cut: the block's pixel (h, w) is the array's pixel (h, w)
  have hi2 : (((cfg0.win 2).blk t).view.emb (ix4 (0 : Fin 1) c' h w)) 2 = h :=
    Fin.ext (show win0_2.index t (2 : Fin 4) * 256 + 1 * h.val = h.val by omega)
  have hi3 : (((cfg0.win 2).blk t).view.emb (ix4 (0 : Fin 1) c' h w)) 3 = w :=
    Fin.ext (show win0_2.index t (3 : Fin 4) * 256 + 1 * w.val = w.val by omega)
  -- the staged feature plane of channel c' is the array's plane at the block's batch and channel
  have hf : (fun h' w' => iblk m c 0 t (ix4 (0 : Fin 1) c' h' w'))
      = fun h' w' => V m c main_arg0 (ix4 ((((cfg0.win 2).blk t).view.emb (ix4 (0 : Fin 1) c' h w)) 0)
          ((((cfg0.win 2).blk t).view.emb (ix4 (0 : Fin 1) c' h w)) 1) h' w') := by
    funext h' w'
    show V m c main_arg0 (((cfg0.win 0).blk t).view.emb (ix4 (0 : Fin 1) c' h' w')) = _
    refine congrArg (V m c main_arg0) (funext fun a => Fin.ext ?_)
    match a with
    | ⟨0, _⟩ => show win0_0.index t (0 : Fin 4) * 1 + 1 * 0 = win0_2.index t (0 : Fin 4) * 1 + 1 * 0; omega
    | ⟨1, _⟩ => show win0_0.index t (1 : Fin 4) * 8 + 1 * c'.val = win0_2.index t (1 : Fin 4) * 8 + 1 * c'.val; omega
    | ⟨2, _⟩ => show win0_0.index t (2 : Fin 4) * 256 + 1 * h'.val = h'.val; omega
    | ⟨3, _⟩ => show win0_0.index t (3 : Fin 4) * 256 + 1 * w'.val = w'.val; omega
  -- the staged weight planes are the block's batch's
  have ha : (fun (k : Fin 9) h' w' => iblk m c 1 t (ix4 (0 : Fin 1) k h' w'))
      = fun (k : Fin 9) h' w' => V m c main_arg1 (ix4 ((((cfg0.win 2).blk t).view.emb (ix4 (0 : Fin 1) c' h w)) 0) k h' w') := by
    funext k h' w'
    show V m c main_arg1 (((cfg0.win 1).blk t).view.emb (ix4 (0 : Fin 1) k h' w')) = _
    refine congrArg (V m c main_arg1) (funext fun a => Fin.ext ?_)
    match a with
    | ⟨0, _⟩ => show win0_1.index t (0 : Fin 4) * 1 + 1 * 0 = win0_2.index t (0 : Fin 4) * 1 + 1 * 0; omega
    | ⟨1, _⟩ => show win0_1.index t (1 : Fin 4) * 9 + 1 * k.val = k.val; omega
    | ⟨2, _⟩ => show win0_1.index t (2 : Fin 4) * 256 + 1 * h'.val = h'.val; omega
    | ⟨3, _⟩ => show win0_1.index t (3 : Fin 4) * 256 + 1 * w'.val = w'.val; omega
  show out0_2 (F := Ideal) (iblk m c 0 t) (iblk m c 1 t) (ix4 (0 : Fin 1) c' h w)
      = conv (fun h' w' => V m c main_arg0 (ix4 ((((cfg0.win 2).blk t).view.emb (ix4 (0 : Fin 1) c' h w)) 0)
          ((((cfg0.win 2).blk t).view.emb (ix4 (0 : Fin 1) c' h w)) 1) h' w'))
        (fun k h' w' => V m c main_arg1 (ix4 ((((cfg0.win 2).blk t).view.emb (ix4 (0 : Fin 1) c' h w)) 0) k h' w'))
        ((((cfg0.win 2).blk t).view.emb (ix4 (0 : Fin 1) c' h w)) 2)
        ((((cfg0.win 2).blk t).view.emb (ix4 (0 : Fin 1) c' h w)) 3)
  rw [hi2, hi3, ← hf, ← ha]
  exact block_eq (iblk m c 0 t) (iblk m c 1 t) c' h w

/-- An index of the result array is in point t's block iff each coordinate is in the block's range. -/
theorem mem_block (t : Fin cfg0.N) (i : S8x64x256x256.Idx) :
    i ∈ ((cfg0.win 2).blk t).view.set ↔ ∀ a : Fin 4, win0_2.index t a * S1x8x256x256.size a ≤ (i a).val
      ∧ (i a).val < win0_2.index t a * S1x8x256x256.size a + S1x8x256x256.size a := by
  show i ∈ ((View.whole main_v0).slice (win0_2.rect t)).set ↔ _
  rw [View.set_slice_whole, Rect.mem_set_unit]
  exact Iff.rfl

/-- The 64 blocks cover the result array: index (n, ch, h, w) is in the block of point (n, ch / 8). -/
theorem blocks_cover (i : S8x64x256x256.Idx) :
    ∃ t : Fin cfg0.N, (cfg0.win 2).flush t = true ∧ i ∈ ((cfg0.win 2).blk t).view.set := by
  have h0 : (i 0).val < 8 := (i 0).isLt
  have h1 : (i 1).val < 64 := (i 1).isLt
  have h2 : (i 2).val < 256 := (i 2).isLt
  have h3 : (i 3).val < 256 := (i 3).isLt
  obtain ⟨t, ht⟩ := window_onto ⟨(i 0).val, h0⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- The result array after the run is `result` of the two argument arrays. -/
theorem final_array (c : Dev nD) :
    (dats m 0 c).arrAt 2 cfg0.N
      = result (m ((c : Thread nD τ).loc main_arg0)) (m ((c : Thread nD τ).loc main_arg1)) :=
  (dats m 0 c).arrAt_eq_of_cover 2 (result (V m c main_arg0) (V m c main_arg1)) (fun t _ => flushed_eq m c t) blocks_cover

/-- Every weakly fair execution of the kernel's program terminates with the result array at `result` of the
    arguments and the arguments unchanged. -/
theorem kernel_run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_array m c), (h c).2⟩)
    (Cert.KernelIdeal.Value.run_blocks m ρ)

end Cert.PerPixel

end
-- ==== Proof.RefValue.lean ====
/-
  The reference program's result is the per-pixel convolution of the specification.

  The reference pads the feature array by one zero pixel on each side of its last two axes (a 258 × 258 plane per
  batch and channel), cuts from it the nine 256 × 256 windows at offsets (i, j), i, j ∈ {0, 1, 2}, multiplies window
  (i, j) by weight plane 3 i + j of the batch (one plane laid along all 64 channels) and adds the nine products, in
  that order, to the feature array.  Entry (h, w) of window (i, j) is entry (h + i, w + j) of the padded plane, which is
  entry (h + i − 1, w + j − 1) of the plane where that lies inside and zero otherwise: the plane continued by zero.
-/
import proofs.«105196_j16269336117256_1_alg».proof.Proof.Gen.ReferenceIdeal.Read
import proofs.«105196_j16269336117256_1_alg».proof.Proof.Spec
import Idealize.ShloMosaic.Lib.KernelVsHost
import Idealize.ShloMosaic.Lib.ValueIdx
import Idealize.ShloMosaic.PureOps.Ideal

noncomputable section

namespace Cert.PerPixel.Reference

open Cert.ReferenceIdeal Cert.ReferenceIdeal.Gen Cert.ReferenceIdeal.Read Idealize.ShloMosaic Idealize.ShloMosaic.ValueIdx

/-! ## The padded array -/

/-- The padding value is zero. -/
theorem padValue (i : S_.Idx) : val_main_call0_v0 (F := Ideal) i = 0 := by
  rw [val_main_call0_v0_apply, val_main_c_apply]
  exact sitofp_zero (φ := .f32)

/-- The padded array at (n, c, p, q) with p = h + i and q = w + j is the (n, c) plane continued by zero, at
    (h + i − 1, w + j − 1). -/
theorem padded_apply (x0 : (⟨S8x64x256x256, .f32⟩ : BufTy).Contents (Elt Ideal)) (k : S8x64x258x258.Idx)
    (n : Fin 8) (c : Fin 64) (h w : Fin 256) (i j : ℕ)
    (k0 : (k 0).val = n.val) (k1 : (k 1).val = c.val) (k2 : (k 2).val = h.val + i) (k3 : (k 3).val = w.val + j) :
    val_main_v0 (F := Ideal) x0 k = nbr (fun h w => x0 (ix4 n c h w)) h w i j := by
  unfold val_main_v0
  by_cases hin : (1 ≤ h.val + i ∧ h.val + i ≤ 256) ∧ (1 ≤ w.val + j ∧ w.val + j ≤ 256)
  · rw [nbr_of_inside _ h w i j ⟨h.val + i - 1, by omega⟩ ⟨w.val + j - 1, by omega⟩
      (by show h.val + i - 1 + 1 = h.val + i; omega) (by show w.val + j - 1 + 1 = w.val + j; omega)]
    refine pad_apply_of_inside _ _ _ x0 _ _ _ k (ix4 n c ⟨h.val + i - 1, by omega⟩ ⟨w.val + j - 1, by omega⟩) ?_
    intro a
    match a with
    | ⟨0, _⟩ => show (k 0).val = 0 + n.val * (0 + 1); omega
    | ⟨1, _⟩ => show (k 1).val = 0 + c.val * (0 + 1); omega
    | ⟨2, _⟩ => show (k 2).val = 1 + (h.val + i - 1) * (0 + 1); omega
    | ⟨3, _⟩ => show (k 3).val = 1 + (w.val + j - 1) * (0 + 1); omega
  · rw [nbr_of_outside _ h w i j hin]
    by_cases hh : 1 ≤ h.val + i ∧ h.val + i ≤ 256
    · rw [pad_apply_of_not_inside _ _ _ x0 _ _ _ k (3 : Fin 4) (by
        show ¬(1 ≤ (k 3).val ∧ ((k 3).val - 1) % (0 + 1) = 0 ∧ ((k 3).val - 1) / (0 + 1) < 256)
        rw [k3]; intro hc; exact hin ⟨hh, by omega⟩)]
      exact padValue _
    · rw [pad_apply_of_not_inside _ _ _ x0 _ _ _ k (2 : Fin 4) (by
        show ¬(1 ≤ (k 2).val ∧ ((k 2).val - 1) % (0 + 1) = 0 ∧ ((k 2).val - 1) / (0 + 1) < 256)
        rw [k2]; intro hc; exact hh (by omega))]
      exact padValue _

/-! ## The nine windows

Window (i, j) at (n, c, h, w) is the padded array at (n, c, h + i, w + j). -/

variable (x0 : (⟨S8x64x256x256, .f32⟩ : BufTy).Contents (Elt Ideal)) (x1 : (⟨S8x9x256x256, .f32⟩ : BufTy).Contents (Elt Ideal))
  (n : Fin 8) (c : Fin 64) (h w : Fin 256)

theorem window00 : val_main_v1 (F := Ideal) x0 (ix4 n c h w) = nbr (fun h w => x0 (ix4 n c h w)) h w 0 0 := by
  rw [val_main_v1_apply]
  exact padded_apply x0 _ n c h w 0 0 rfl rfl rfl rfl

theorem window01 : val_main_v8 (F := Ideal) x0 (ix4 n c h w) = nbr (fun h w => x0 (ix4 n c h w)) h w 0 1 := by
  rw [val_main_v8_apply]
  exact padded_apply x0 _ n c h w 0 1 rfl rfl rfl (Nat.add_comm 1 w.val)

theorem window02 : val_main_v15 (F := Ideal) x0 (ix4 n c h w) = nbr (fun h w => x0 (ix4 n c h w)) h w 0 2 := by
  rw [val_main_v15_apply]
  exact padded_apply x0 _ n c h w 0 2 rfl rfl rfl (Nat.add_comm 2 w.val)

theorem window10 : val_main_v22 (F := Ideal) x0 (ix4 n c h w) = nbr (fun h w => x0 (ix4 n c h w)) h w 1 0 := by
  rw [val_main_v22_apply]
  exact padded_apply x0 _ n c h w 1 0 rfl rfl (Nat.add_comm 1 h.val) rfl

theorem window11 : val_main_v29 (F := Ideal) x0 (ix4 n c h w) = nbr (fun h w => x0 (ix4 n c h w)) h w 1 1 := by
  rw [val_main_v29_apply]
  exact padded_apply x0 _ n c h w 1 1 rfl rfl (Nat.add_comm 1 h.val) (Nat.add_comm 1 w.val)

theorem window12 : val_main_v36 (F := Ideal) x0 (ix4 n c h w) = nbr (fun h w => x0 (ix4 n c h w)) h w 1 2 := by
  rw [val_main_v36_apply]
  exact padded_apply x0 _ n c h w 1 2 rfl rfl (Nat.add_comm 1 h.val) (Nat.add_comm 2 w.val)

theorem window20 : val_main_v43 (F := Ideal) x0 (ix4 n c h w) = nbr (fun h w => x0 (ix4 n c h w)) h w 2 0 := by
  rw [val_main_v43_apply]
  exact padded_apply x0 _ n c h w 2 0 rfl rfl (Nat.add_comm 2 h.val) rfl

theorem window21 : val_main_v50 (F := Ideal) x0 (ix4 n c h w) = nbr (fun h w => x0 (ix4 n c h w)) h w 2 1 := by
  rw [val_main_v50_apply]
  exact padded_apply x0 _ n c h w 2 1 rfl rfl (Nat.add_comm 2 h.val) (Nat.add_comm 1 w.val)

theorem window22 : val_main_v57 (F := Ideal) x0 (ix4 n c h w) = nbr (fun h w => x0 (ix4 n c h w)) h w 2 2 := by
  rw [val_main_v57_apply]
  exact padded_apply x0 _ n c h w 2 2 rfl rfl (Nat.add_comm 2 h.val) (Nat.add_comm 2 w.val)

/-! ## The nine weight arrays

Weight array k is plane k of every batch of the weights, laid along all 64 channels: at (n, c, h, w) it is the
weights at (n, k, h, w).  The plane is cut out as an 8 × 1 × 256 × 256 array, recast to 8 × 256 × 256 and broadcast
back along the channel axis; the recast reads the row-major position (n · 256 + h) · 256 + w, whose coordinates are
n, h, w again. -/

/-- An index of the weights whose batch, row and column are the coordinates of the row-major position
    (n · 256 + h) · 256 + w, and whose plane is k, is (n, k, h, w). -/
theorem planeIdx_eq (k : Fin 9) (j : S8x9x256x256.Idx)
    (j0 : (j 0).val = ((n.val * 256 + h.val) * 256 + w.val) / 65536) (j1 : (j 1).val = k.val)
    (j2 : (j 2).val = ((n.val * 256 + h.val) * 256 + w.val) / 256 % 256)
    (j3 : (j 3).val = ((n.val * 256 + h.val) * 256 + w.val) % 256) : j = ix4 n k h w := by
  have hn := n.isLt; have hh := h.isLt; have hw := w.isLt
  funext a
  refine Fin.ext ?_
  match a with
  | ⟨0, _⟩ => show (j 0).val = n.val; omega
  | ⟨1, _⟩ => exact j1
  | ⟨2, _⟩ => show (j 2).val = h.val; omega
  | ⟨3, _⟩ => show (j 3).val = w.val; omega

theorem weight0 : val_main_v5 (F := Ideal) x1 (ix4 n c h w) = x1 (ix4 n 0 h w) := by
  rw [val_main_v5_apply, val_main_v4_apply, val_main_v3_apply, val_main_v2_apply]
  exact congrArg x1 (planeIdx_eq n h w 0 _ rfl rfl rfl rfl)

theorem weight1 : val_main_v12 (F := Ideal) x1 (ix4 n c h w) = x1 (ix4 n 1 h w) := by
  rw [val_main_v12_apply, val_main_v11_apply, val_main_v10_apply, val_main_v9_apply]
  exact congrArg x1 (planeIdx_eq n h w 1 _ rfl rfl rfl rfl)

theorem weight2 : val_main_v19 (F := Ideal) x1 (ix4 n c h w) = x1 (ix4 n 2 h w) := by
  rw [val_main_v19_apply, val_main_v18_apply, val_main_v17_apply, val_main_v16_apply]
  exact congrArg x1 (planeIdx_eq n h w 2 _ rfl rfl rfl rfl)

theorem weight3 : val_main_v26 (F := Ideal) x1 (ix4 n c h w) = x1 (ix4 n 3 h w) := by
  rw [val_main_v26_apply, val_main_v25_apply, val_main_v24_apply, val_main_v23_apply]
  exact congrArg x1 (planeIdx_eq n h w 3 _ rfl rfl rfl rfl)

theorem weight4 : val_main_v33 (F := Ideal) x1 (ix4 n c h w) = x1 (ix4 n 4 h w) := by
  rw [val_main_v33_apply, val_main_v32_apply, val_main_v31_apply, val_main_v30_apply]
  exact congrArg x1 (planeIdx_eq n h w 4 _ rfl rfl rfl rfl)

theorem weight5 : val_main_v40 (F := Ideal) x1 (ix4 n c h w) = x1 (ix4 n 5 h w) := by
  rw [val_main_v40_apply, val_main_v39_apply, val_main_v38_apply, val_main_v37_apply]
  exact congrArg x1 (planeIdx_eq n h w 5 _ rfl rfl rfl rfl)

theorem weight6 : val_main_v47 (F := Ideal) x1 (ix4 n c h w) = x1 (ix4 n 6 h w) := by
  rw [val_main_v47_apply, val_main_v46_apply, val_main_v45_apply, val_main_v44_apply]
  exact congrArg x1 (planeIdx_eq n h w 6 _ rfl rfl rfl rfl)

theorem weight7 : val_main_v54 (F := Ideal) x1 (ix4 n c h w) = x1 (ix4 n 7 h w) := by
  rw [val_main_v54_apply, val_main_v53_apply, val_main_v52_apply, val_main_v51_apply]
  exact congrArg x1 (planeIdx_eq n h w 7 _ rfl rfl rfl rfl)

theorem weight8 : val_main_v61 (F := Ideal) x1 (ix4 n c h w) = x1 (ix4 n 8 h w) := by
  rw [val_main_v61_apply, val_main_v60_apply, val_main_v59_apply, val_main_v58_apply]
  exact congrArg x1 (planeIdx_eq n h w 8 _ rfl rfl rfl rfl)

/-! ## The sum -/

/-- The reference's result is the specification's. -/
theorem ref_eq_result (x0 : (⟨Cert.ReferenceIdeal.S8x64x256x256, .f32⟩ : BufTy).Contents (Elt Ideal)) (x1 : (⟨Cert.ReferenceIdeal.S8x9x256x256, .f32⟩ : BufTy).Contents (Elt Ideal)) :
    Cert.ReferenceIdeal.Read.val_main_v63 (F := Ideal) x0 x1 = Cert.PerPixel.result x0 x1 := by
  funext i
  obtain ⟨n, c, h, w, rfl⟩ : ∃ n c h w, i = ix4 n c h w := ⟨i 0, i 1, i 2, i 3, eq_ix4 i⟩
  rw [result_apply]
  unfold conv
  rw [val_main_v63_apply, val_main_v62_apply, val_main_v56_apply, val_main_v55_apply, val_main_v49_apply,
    val_main_v48_apply, val_main_v42_apply, val_main_v41_apply, val_main_v35_apply, val_main_v34_apply,
    val_main_v28_apply, val_main_v27_apply, val_main_v21_apply, val_main_v20_apply, val_main_v14_apply,
    val_main_v13_apply, val_main_v7_apply, val_main_v6_apply]
  rw [window00, window01, window02, window10, window11, window12, window20, window21, window22,
    weight0, weight1, weight2, weight3, weight4, weight5, weight6, weight7, weight8]
  rfl

end Cert.PerPixel.Reference

end
-- ==== Proof.lean ====
/-
  A per-pixel 3 × 3 convolution with a residual, kernel against reference, over the extended reals.

  Both programs compute, for every batch n, channel c and pixel (h, w),
      feat[n, c, h, w] + Σ_{i, j ∈ {0,1,2}}  f̄[n, c](h + i − 1, w + j − 1) · att[n, 3 i + j, h, w],
  the nine products added one after another in tap order, f̄[n, c] the (n, c) plane continued by zero
  (Proof/Spec.lean: `result`).

  The reference pads the feature array with a border of zeros and cuts the nine shifted windows out of it
  (Proof/RefValue.lean).  The kernel keeps a block of eight whole planes and, for each tap, rotates the block by one
  row and/or one column and multiplies by a mask that is 0 exactly where the rotation wrapped around
  (Proof/Reads.lean, Proof/KernelBlock.lean); its 8 × 8 grid of blocks tiles the result array
  (Proof/KernelArray.lean).  A rotated entry times its mask is the plane continued by zero because x · 1 = x and
  x · 0 = 0 for every extended real x, so the two results are equal term by term, with no use of the inputs'
  finiteness and no rearrangement of the sum.

  The three frames are the generated ones (the reference's is its generated run with the result dropped), and the
  idealization rewrote nothing, so its claim is trivial.
-/
import proofs.«105196_j16269336117256_1_alg».proof.Defs
import proofs.«105196_j16269336117256_1_alg».proof.Proof.Gen.Kernel
import proofs.«105196_j16269336117256_1_alg».proof.Proof.Gen.Kernel.Skeleton
import proofs.«105196_j16269336117256_1_alg».proof.Proof.Gen.Kernel.Launch
import proofs.«105196_j16269336117256_1_alg».proof.Proof.Gen.Kernel.Points
import proofs.«105196_j16269336117256_1_alg».proof.Proof.Gen.Kernel.Frame
import proofs.«105196_j16269336117256_1_alg».proof.Proof.Gen.KernelIdeal
import proofs.«105196_j16269336117256_1_alg».proof.Proof.Gen.KernelIdeal.Skeleton
import proofs.«105196_j16269336117256_1_alg».proof.Proof.Gen.KernelIdeal.Launch
import proofs.«105196_j16269336117256_1_alg».proof.Proof.Gen.KernelIdeal.Points
import proofs.«105196_j16269336117256_1_alg».proof.Proof.Gen.KernelIdeal.Frame
import proofs.«105196_j16269336117256_1_alg».proof.Proof.Gen.ReferenceIdeal
import proofs.«105196_j16269336117256_1_alg».proof.Proof.Gen.Pre_finite_inputs
import proofs.«105196_j16269336117256_1_alg».proof.Proof.Gen.KernelIdeal.Value
import proofs.«105196_j16269336117256_1_alg».proof.Proof.Gen.ReferenceIdeal.Run
import proofs.«105196_j16269336117256_1_alg».proof.Proof.Gen.ReferenceIdeal.Read
import proofs.«105196_j16269336117256_1_alg».proof.Proof.KernelArray
import proofs.«105196_j16269336117256_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and keeps its arguments: its run, the result's value dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- From memories that agree on the two arguments, the kernel's result array and the reference's both end at the
    convolution `result` of the arguments. -/
theorem algebraic : Cert.algebraic_KernelIdeal_ReferenceIdeal := by
  intro m ρ m' ρ' _ hagree
  refine ⟨fun c => Cert.PerPixel.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.PerPixel.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v63_eq, Cert.PerPixel.Reference.ref_eq_result,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
